-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_arg5 : FVec F S32x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000x32 .f32) (main_arg3 : FVec F S128x64 .f32) (main_arg4 : FVec F S64 .f32) (main_arg5 : FVec F S32x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S1x1600000 : Shape := ⟨2, ![1, 1600000]⟩
abbrev S1600000 : Shape := ⟨1, ![1600000]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1600000x64 : Shape := ⟨2, ![1600000, 64]⟩
abbrev S16000x32 : Shape := ⟨2, ![16000, 32]⟩
abbrev S16000x64 : Shape := ⟨2, ![16000, 64]⟩
abbrev S_ : Shape := ⟨0, ![]⟩
abbrev S100000 : Shape := ⟨1, ![100000]⟩
abbrev S1600000x1 : Shape := ⟨2, ![1600000, 1]⟩
abbrev S8000x64 : Shape := ⟨2, ![8000, 64]⟩

abbrev nBuf : Space → Nat
  | .hbm => 67
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x64, .f32⟩
  | .hbm, ⟨4, _⟩ => ⟨S64, .f32⟩
  | .hbm, ⟨5, _⟩ => ⟨S32x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1x64, .f32⟩
  | .hbm, ⟨12, _⟩ => ⟨S100000x64, .f32⟩
  | .hbm, ⟨13, _⟩ => ⟨S1x64, .f32⟩
  | .hbm, ⟨14, _⟩ => ⟨S1600000x64, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S1600000x1, .f32⟩
  | .hbm, ⟨51, _⟩ => ⟨S1600000x64, .f32⟩
  | .hbm, ⟨52, _⟩ => ⟨S1600000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S16000x32, .f32⟩
  | .local _ .vmem, ⟨7, _⟩ => ⟨S16000x32, .f32⟩
  | .local _ .vmem, ⟨8, _⟩ => ⟨S32x64, .f32⟩
  | .local _ .vmem, ⟨9, _⟩ => ⟨S1x64, .f32⟩
  | .local _ .vmem, ⟨10, _⟩ => ⟨S16000x64, .f32⟩
  | .local _ .vmem, ⟨11, _⟩ => ⟨S16000x64, .f32⟩
  | .local _ .vmem, ⟨12, _⟩ => ⟨S8000x64, .f32⟩
  | .local _ .vmem, ⟨13, _⟩ => ⟨S8000x64, .f32⟩
  | .local _ .vmem, ⟨14, _⟩ => ⟨S8000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  inb_S16000x32_S16000x32_0_0 : ∀ a, (![0, 0] : Fin 2 → Nat) a + S16000x32.size a ≤ S16000x32.size a
  h_S16000x32 : 0 < S16000x32.numel
  inb_S32x64_S32x64_0_0 : ∀ a, (![0, 0] : Fin 2 → Nat) a + S32x64.size a ≤ S32x64.size a
  h_S32x64 : 0 < S32x64.numel
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S100000x64 : S_.BroadcastsInDim S100000x64 (![] : Fin 0 → Fin S100000x64.rank)
  dot_S10000x128_S128x64_S10000x64_1_0_0_1_n_n_wf : DotDims.WF S10000x128 S128x64 S10000x64 [1] [0] [0] [1] [] []
  dot_S16000x32_S32x64_S16000x64_1_0_0_1_n_n_wf : DotDims.WF S16000x32 S32x64 S16000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x32.size a ≤ S1600000x32.size a
  hwx1_0 : ∀ i : grid1.Coords, EltTy.bits .f32 = 32 ∨ (Rect.block (s := S1600000x32) S16000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16000x64.size a ≤ S1600000x64.size a
  hwx1_3 : ∀ i : grid1.Coords, EltTy.bits .f32 = 32 ∨ (Rect.block (s := S1600000x64) S16000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .f32 = 32 ∨ (Rect.block (s := S1600000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S1600000x64.size a
  hwx2_1 : ∀ i : grid2.Coords, EltTy.bits .f32 = 32 ∨ (Rect.block (s := S1600000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S1600000x64.size a
  hwx2_2 : ∀ i : grid2.Coords, EltTy.bits .f32 = 32 ∨ (Rect.block (s := S1600000x64) S8000x64.size (cc2_transform_2 i) (hinb2_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S16000x32_S32x64_S16000x64_1_0_0_1_n_n : DotDims S16000x32 S32x64 S16000x64 where
  lhsContracting := [1]
  rhsContracting := [0]
  lhsNonContracting := [0]
  rhsNonContracting := [1]
  lhsBatch := []
  rhsBatch := []
  wf := dot_S16000x32_S32x64_S16000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S16000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S16000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S100000x64 : Shape := ⟨2, ![100000, 64]⟩
abbrev S1x64 : Shape := ⟨2, ![1, 64]⟩
abbrev S1600000x64 : Shape := ⟨2, ![1600000, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩

abbrev nBuf : Space → Nat
  | .hbm => 87
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x64, .f32⟩
  | .hbm, ⟨4, _⟩ => ⟨S64, .f32⟩
  | .hbm, ⟨5, _⟩ => ⟨S32x64, .f32⟩
  | .hbm, ⟨6, _⟩ => ⟨S64, .f32⟩
  | .hbm, ⟨7, _⟩ => ⟨S100000x64, .f32⟩
  | .hbm, ⟨8, _⟩ => ⟨S1x64, .f32⟩
  | .hbm, ⟨9, _⟩ => ⟨S100000x64, .f32⟩
  | .hbm, ⟨10, _⟩ => ⟨S100000x64, .f32⟩
  | .hbm, ⟨11, _⟩ => ⟨S1600000x64, .f32⟩
  | .hbm, ⟨12, _⟩ => ⟨S1x64, .f32⟩
  | .hbm, ⟨13, _⟩ => ⟨S1600000x64, .f32⟩
  | .hbm, ⟨14, _⟩ => ⟨S1600000x64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .i1⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S_, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000, .f32⟩
  | .hbm, ⟨69, _⟩ => ⟨S1600000, .f32⟩
  | .hbm, ⟨70, _⟩ => ⟨S1600000x1, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S1600000x64, .f32⟩
  | .hbm, ⟨81, _⟩ => ⟨S1600000x64, .f32⟩
  | .hbm, ⟨82, _⟩ => ⟨S1600000x64, .f32⟩
  | .hbm, ⟨83, _⟩ => ⟨S_, .f32⟩
  | .hbm, ⟨84, _⟩ => ⟨S100000x64, .f32⟩
  | .hbm, ⟨85, _⟩ => ⟨S1600000x1, .i32⟩
  | .hbm, ⟨86, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_call1_v0 : Ref sig .tc := ⟨.hbm, 48, rfl⟩
abbrev main_call1_v1 : Ref sig .tc := ⟨.hbm, 49, rfl⟩
abbrev main_v30 : Ref sig .tc := ⟨.hbm, 50, rfl⟩
abbrev main_c : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_c_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1600000x64_0_1 : S1x64.BroadcastsInDim S1600000x64 (![0, 1] : Fin 2 → Fin S1600000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  dot_S1600000x32_S32x64_S1600000x64_1_0_0_1_n_n_wf : DotDims.WF S1600000x32 S32x64 S1600000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.NodePay.lean ====
/-
  The node projection's block, index by index, at the ideal instance.

  One grid point of the first linear kernel holds a block `xb` of 10000 rows of the node features, the whole
  weight matrix `W` (128 × 64) and the bias as a 1 × 64 row `b`. What it stores is
      (xb · W)[p, q] + b[0, q]  =  ∑ k < 128, xb[p, k] · W[k, q]  +  b[0, q] :
  the two casts to bf16 are the identity on extended reals, the product accumulates into a zero block,
  and the bias row is broadcast down the rows.
-/
import proofs.«412949_j3453153706428_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.NodeProj

open Cert.KernelIdeal Cert.KernelIdeal.Gen Idealize.ShloMosaic Idealize.ShloMosaic.TcCoe

/-- Row `p` of the block of features, column `k`. -/
abbrev xIdx (j : S10000x64.Idx) (k : Fin 128) : S10000x128.Idx := fun a => match a with
  | ⟨0, _⟩ => ⟨(j 0).val, (j 0).isLt⟩
  | ⟨1, _⟩ => ⟨k.val, k.isLt⟩
/-- Row `k` of the weights, column `q`. -/
abbrev wIdx (j : S10000x64.Idx) (k : Fin 128) : S128x64.Idx := fun a => match a with
  | ⟨0, _⟩ => ⟨k.val, k.isLt⟩
  | ⟨1, _⟩ => ⟨(j 1).val, (j 1).isLt⟩
/-- The bias row at column `q`. -/
abbrev bIdx (j : S10000x64.Idx) : S1x64.Idx := fun a => match a with
  | ⟨0, _⟩ => ⟨0, Nat.one_pos⟩
  | ⟨1, _⟩ => ⟨(j 1).val, (j 1).isLt⟩

/-! The product's operand indices, axis by axis: the left operand is read at (row of the result, contraction
    index), the right at (contraction index, column of the result). -/

theorem lhs_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The product into a zero block, at an index: the sum over the 128 contraction positions. -/
theorem matmul_at (x : FVec Ideal S10000x128 .bf16) (W : FVec Ideal S128x64 .bf16) (j : S10000x64.Idx) :
    matmul (F := Ideal) dot_S10000x128_S128x64_S10000x64_1_0_0_1_n_n none x W (constant S10000x64 .f32 0x00000000#32) j
      = ∑ k : Fin 128, x (xIdx j k) * W (wIdx j k) := by
  show FloatOps.matmul dot_S10000x128_S128x64_S10000x64_1_0_0_1_n_n none x W (constant S10000x64 .f32 0x00000000#32) j = _
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = xIdx j k := funext fun a => Fin.ext (by
    match a with
    | ⟨0, _⟩ => exact lhs_0 _ _
    | ⟨1, _⟩ => exact (lhs_1 _ _).trans hk)
  have er : dot_S10000x128_S128x64_S10000x64_1_0_0_1_n_n.rhsIdx j ((ValueIdx.contrEquiv1 dot_S10000x128_S128x64_S10000x64_1_0_0_1_n_n 128 rfl rfl).symm k) = wIdx j k := funext fun a => Fin.ext (by
    match a with
    | ⟨0, _⟩ => exact (rhs_0 _ _).trans hk
    | ⟨1, _⟩ => exact rhs_1 _ _)
  rw [el, er]

/-- The bias row broadcast down the rows, at an index. -/
theorem bias_at (b : Vec Ideal S1x64 .f32) (j : S10000x64.Idx) :
    broadcastTo S10000x64 (shapeCast S1x64 b shapeCasts_S1x64_S1x64) broadcasts_S1x64_S10000x64 j = b (bIdx j) := by
  rw [shapeCast_self]
  exact broadcastTo_apply b broadcasts_S1x64_S10000x64 j (bIdx j) (fun a => match a with
    | ⟨0, _⟩ => by show 0 = if (1 : Nat) = 1 then 0 else _; rw [if_pos rfl]
    | ⟨1, _⟩ => by show (j 1).val = if (64 : Nat) = 1 then 0 else (j 1).val; rw [if_neg (by decide)])

/-- What one grid point stores, at an index of its block. -/
theorem pay_at (xb : Vec Ideal S10000x128 .f32) (W : Vec Ideal S128x64 .f32) (b : Vec Ideal S1x64 .f32) (j : S10000x64.Idx) :
    k0_pay1 (F := Ideal) xb W b j = (∑ k : Fin 128, xb (xIdx j k) * W (wIdx j k)) + b (bIdx j) := by
  unfold k0_pay1
  show matmul (F := Ideal) dot_S10000x128_S128x64_S10000x64_1_0_0_1_n_n none (truncf .bf16 xb bitsLt_bf16_f32) (truncf .bf16 W bitsLt_bf16_f32) (constant S10000x64 .f32 0x00000000#32) j
      + broadcastTo S10000x64 (shapeCast S1x64 b shapeCasts_S1x64_S1x64) broadcasts_S1x64_S10000x64 j = _
  rw [matmul_at, bias_at]
  rfl

end Cert.KernelIdeal.NodeProj

end
-- ==== Proof.NodeArr.lean ====
/-
  The node projection as ONE array.

  The first linear kernel runs over 10 grid points; point `t` reads rows 10000·t … 10000·t + 9999 of the
  node features, the whole weight matrix and the whole bias row, and writes back rows 10000·t … of the result.
  Every written block is a block of one function of the whole arrays,
      nodeArr x W b [r, q] = ∑ k < 128, x[r, k] · W[k, q] + b[0, q],
  and the ten blocks tile the 100000 rows, so after the region the result array IS that function.
-/
import proofs.«412949_j3453153706428_3_alg».proof.Proof.Gen.KernelIdeal.Frame
import proofs.«412949_j3453153706428_3_alg».proof.Proof.NodePay
import Idealize.ShloMosaic.Lib.Pipeline.Value

set_option maxRecDepth 16384

noncomputable section

namespace Cert.KernelIdeal.NodeProj

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `r` of the features, column `k`. -/
abbrev xRow (i : S100000x64.Idx) (k : Fin 128) : S100000x128.Idx := fun a => match a with
  | ⟨0, _⟩ => ⟨(i 0).val, (i 0).isLt⟩
  | ⟨1, _⟩ => ⟨k.val, k.isLt⟩
/-- Row `k` of the weights, column `q`. -/
abbrev wCol (i : S100000x64.Idx) (k : Fin 128) : S128x64.Idx := fun a => match a with
  | ⟨0, _⟩ => ⟨k.val, k.isLt⟩
  | ⟨1, _⟩ => ⟨(i 1).val, (i 1).isLt⟩
/-- The bias row at column `q`. -/
abbrev bCol (i : S100000x64.Idx) : S1x64.Idx := fun a => match a with
  | ⟨0, _⟩ => ⟨0, Nat.one_pos⟩
  | ⟨1, _⟩ => ⟨(i 1).val, (i 1).isLt⟩

/-- The node projection of whole arrays: rows of `x` times `W`, plus the bias row. -/
def nodeArr (x : Vec Ideal S100000x128 .f32) (W : Vec Ideal S128x64 .f32) (b : Vec Ideal S1x64 .f32) : Vec Ideal S100000x64 .f32 :=
  fun i => (∑ k : Fin 128, x (xRow i k) * W (wCol i k)) + b (bCol i)

/-- Where each window's block sits at point `t`: the features and the result at block row `t`, the weights and the
    bias at their only block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `nodeArr` of the arrays as the region finds them. -/
theorem flushed_eq (c : Dev nD) (t : Fin cfg0.N) :
    (dat0 V c).flushed 3 t = ((cfg0.win 3).blk t).view.read (Elt Ideal) (nodeArr (V c main_arg0) (V c main_arg3) (V c main_v4)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S1x64) hz]
  obtain ⟨e0, e1, e2, e3, e4, e5, e6, e7⟩ := idx_facts t
  funext j
  show k0_pay1 (F := Ideal) (iblk0 V c 0 t) (iblk0 V c 1 t) (iblk0 V c 2 t) j
      = nodeArr (V c main_arg0) (V c main_arg3) (V c main_v4) (((cfg0.win 3).blk t).view.emb j)
  refine (pay_at (iblk0 V c 0 t) (iblk0 V c 1 t) (iblk0 V c 2 t) j).trans ?_
  unfold nodeArr
  have hx : ∀ k : Fin 128, iblk0 V c 0 t (xIdx j k) = V c main_arg0 (xRow (((cfg0.win 3).blk t).view.emb j) k) := fun k => by
    show V c main_arg0 (((cfg0.win 0).blk t).view.emb (xIdx j k)) = _
    refine congrArg (V c main_arg0) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  have hw : ∀ k : Fin 128, iblk0 V c 1 t (wIdx j k) = V c main_arg3 (wCol (((cfg0.win 3).blk t).view.emb j) k) := fun k => by
    show V c main_arg3 (((cfg0.win 1).blk t).view.emb (wIdx j k)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_3.index t (1 : Fin 2) * 64 + 1 * (j 1).val; omega
  have hb : iblk0 V c 2 t (bIdx j) = V c main_v4 (bCol (((cfg0.win 3).blk t).view.emb j)) := by
    show V c main_v4 (((cfg0.win 2).blk t).view.emb (bIdx j)) = _
    refine congrArg (V c main_v4) (funext fun a => Fin.ext ?_)
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega
  rw [hb]
  exact congrArg (· + _) (Finset.sum_congr rfl fun k _ => by rw [hx k, hw k])

/-- An index of the result is in point `t`'s block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v5).slice (win0_3.rect t)).set ↔ _
  rw [View.set_slice_whole, Rect.mem_set_unit]
  exact Iff.rfl

/-- Row `r` lies in the block of point `r / 10000`: the ten blocks tile the rows. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  refine ⟨⟨(i 0).val / 10000, by rw [show cfg0.N = 10 from N_0]; omega⟩, flush0_3 _, ?_⟩
  rw [mem_blk]
  obtain ⟨-, -, -, -, -, -, e6, e7⟩ := idx_facts ⟨(i 0).val / 10000, by rw [show cfg0.N = 10 from N_0]; omega⟩
  intro a
  match a with
  | ⟨0, _⟩ =>
    show win0_3.index _ (0 : Fin 2) * 10000 ≤ (i 0).val ∧ (i 0).val < win0_3.index _ (0 : Fin 2) * 10000 + 10000
    rw [e6]; show (i 0).val / 10000 * 10000 ≤ (i 0).val ∧ (i 0).val < (i 0).val / 10000 * 10000 + 10000; omega
  | ⟨1, _⟩ =>
    show win0_3.index _ (1 : Fin 2) * 64 ≤ (i 1).val ∧ (i 1).val < win0_3.index _ (1 : Fin 2) * 64 + 64
    rw [e7]; omega

/-- After the region the result array is `nodeArr` of the features, the weights and the bias row as the region
    found them. -/
theorem arr_eq (c : Dev nD) :
    (dat0 V c).arrAt 3 cfg0.N = nodeArr (V c main_arg0) (V c main_arg3) (V c main_v4) :=
  (dat0 V c).arrAt_eq_of_cover 3 (nodeArr (V c main_arg0) (V c main_arg3) (V c main_v4)) (fun t _ => flushed_eq V c t) cover

end Cert.KernelIdeal.NodeProj

end
-- ==== Proof.EdgePay.lean ====
/-
  The edge projection's block, index by index, at the ideal instance.

  One grid point of the second linear kernel holds a block `xb` of 16000 rows of the edge features, the whole
  weight matrix `W` (32 × 64) and the bias as a 1 × 64 row `b`. What it stores is
      (xb · W)[p, q] + b[0, q]  =  ∑ k < 32, xb[p, k] · W[k, q]  +  b[0, q] :
  the two casts to bf16 are the identity on extended reals, the product accumulates into a zero block,
  and the bias row is broadcast down the rows.
-/
import proofs.«412949_j3453153706428_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.EdgeProj

open Cert.KernelIdeal Cert.KernelIdeal.Gen Idealize.ShloMosaic Idealize.ShloMosaic.TcCoe

/-- Row `p` of the block of features, column `k`. -/
abbrev xIdx (j : S16000x64.Idx) (k : Fin 32) : S16000x32.Idx := fun a => match a with
  | ⟨0, _⟩ => ⟨(j 0).val, (j 0).isLt⟩
  | ⟨1, _⟩ => ⟨k.val, k.isLt⟩
/-- Row `k` of the weights, column `q`. -/
abbrev wIdx (j : S16000x64.Idx) (k : Fin 32) : S32x64.Idx := fun a => match a with
  | ⟨0, _⟩ => ⟨k.val, k.isLt⟩
  | ⟨1, _⟩ => ⟨(j 1).val, (j 1).isLt⟩
/-- The bias row at column `q`. -/
abbrev bIdx (j : S16000x64.Idx) : S1x64.Idx := fun a => match a with
  | ⟨0, _⟩ => ⟨0, Nat.one_pos⟩
  | ⟨1, _⟩ => ⟨(j 1).val, (j 1).isLt⟩

/-! The product's operand indices, axis by axis: the left operand is read at (row of the result, contraction
    index), the right at (contraction index, column of the result). -/

theorem lhs_0 (i : S16000x64.Idx) (q : dot_S16000x32_S32x64_S16000x64_1_0_0_1_n_n.contr.Idx) :
    (dot_S16000x32_S32x64_S16000x64_1_0_0_1_n_n.lhsIdx i q 0).val = (i 0).val := by
  unfold DotDims.lhsIdx
  rw [dif_neg (show ¬(0 : Fin S16000x32.rank) ∈ dot_S16000x32_S32x64_S16000x64_1_0_0_1_n_n.lhsBatch by decide), dif_pos (show (0 : Fin S16000x32.rank) ∈ dot_S16000x32_S32x64_S16000x64_1_0_0_1_n_n.lhsNonContracting by decide)]
  rfl
theorem lhs_1 (i : S16000x64.Idx) (q : dot_S16000x32_S32x64_S16000x64_1_0_0_1_n_n.contr.Idx) :
    (dot_S16000x32_S32x64_S16000x64_1_0_0_1_n_n.lhsIdx i q 1).val = (q ⟨0, by decide⟩).val :=
  dot_S16000x32_S32x64_S16000x64_1_0_0_1_n_n.lhsIdx_val_of_single rfl i q
theorem rhs_0 (i : S16000x64.Idx) (q : dot_S16000x32_S32x64_S16000x64_1_0_0_1_n_n.contr.Idx) :
    (dot_S16000x32_S32x64_S16000x64_1_0_0_1_n_n.rhsIdx i q 0).val = (q ⟨0, by decide⟩).val :=
  dot_S16000x32_S32x64_S16000x64_1_0_0_1_n_n.rhsIdx_val_of_single rfl i q
theorem rhs_1 (i : S16000x64.Idx) (q : dot_S16000x32_S32x64_S16000x64_1_0_0_1_n_n.contr.Idx) :
    (dot_S16000x32_S32x64_S16000x64_1_0_0_1_n_n.rhsIdx i q 1).val = (i 1).val := by
  unfold DotDims.rhsIdx
  rw [dif_neg (show ¬(1 : Fin S32x64.rank) ∈ dot_S16000x32_S32x64_S16000x64_1_0_0_1_n_n.rhsBatch by decide), dif_pos (show (1 : Fin S32x64.rank) ∈ dot_S16000x32_S32x64_S16000x64_1_0_0_1_n_n.rhsNonContracting by decide)]
  rfl

/-- The product into a zero block, at an index: the sum over the 32 contraction positions. -/
theorem matmul_at (x : FVec Ideal S16000x32 .bf16) (W : FVec Ideal S32x64 .bf16) (j : S16000x64.Idx) :
    matmul (F := Ideal) dot_S16000x32_S32x64_S16000x64_1_0_0_1_n_n none x W (constant S16000x64 .f32 0x00000000#32) j
      = ∑ k : Fin 32, x (xIdx j k) * W (wIdx j k) := by
  show FloatOps.matmul dot_S16000x32_S32x64_S16000x64_1_0_0_1_n_n none x W (constant S16000x64 .f32 0x00000000#32) j = _
  rw [Ideal.matmul_constant_zero_apply, ← Equiv.sum_comp (ValueIdx.contrEquiv1 dot_S16000x32_S32x64_S16000x64_1_0_0_1_n_n 32 rfl rfl).symm]
  refine Finset.sum_congr rfl fun k _ => ?_
  have hk := ValueIdx.contrEquiv1_symm_val dot_S16000x32_S32x64_S16000x64_1_0_0_1_n_n 32 rfl rfl k
  have el : dot_S16000x32_S32x64_S16000x64_1_0_0_1_n_n.lhsIdx j ((ValueIdx.contrEquiv1 dot_S16000x32_S32x64_S16000x64_1_0_0_1_n_n 32 rfl rfl).symm k) = xIdx j k := funext fun a => Fin.ext (by
    match a with
    | ⟨0, _⟩ => exact lhs_0 _ _
    | ⟨1, _⟩ => exact (lhs_1 _ _).trans hk)
  have er : dot_S16000x32_S32x64_S16000x64_1_0_0_1_n_n.rhsIdx j ((ValueIdx.contrEquiv1 dot_S16000x32_S32x64_S16000x64_1_0_0_1_n_n 32 rfl rfl).symm k) = wIdx j k := funext fun a => Fin.ext (by
    match a with
    | ⟨0, _⟩ => exact (rhs_0 _ _).trans hk
    | ⟨1, _⟩ => exact rhs_1 _ _)
  rw [el, er]

/-- The bias row broadcast down the rows, at an index. -/
theorem bias_at (b : Vec Ideal S1x64 .f32) (j : S16000x64.Idx) :
    broadcastTo S16000x64 (shapeCast S1x64 b shapeCasts_S1x64_S1x64) broadcasts_S1x64_S16000x64 j = b (bIdx j) := by
  rw [shapeCast_self]
  exact broadcastTo_apply b broadcasts_S1x64_S16000x64 j (bIdx j) (fun a => match a with
    | ⟨0, _⟩ => by show 0 = if (1 : Nat) = 1 then 0 else _; rw [if_pos rfl]
    | ⟨1, _⟩ => by show (j 1).val = if (64 : Nat) = 1 then 0 else (j 1).val; rw [if_neg (by decide)])

/-- What one grid point stores, at an index of its block. -/
theorem pay_at (xb : Vec Ideal S16000x32 .f32) (W : Vec Ideal S32x64 .f32) (b : Vec Ideal S1x64 .f32) (j : S16000x64.Idx) :
    k1_pay1 (F := Ideal) xb W b j = (∑ k : Fin 32, xb (xIdx j k) * W (wIdx j k)) + b (bIdx j) := by
  unfold k1_pay1
  show matmul (F := Ideal) dot_S16000x32_S32x64_S16000x64_1_0_0_1_n_n none (truncf .bf16 xb bitsLt_bf16_f32) (truncf .bf16 W bitsLt_bf16_f32) (constant S16000x64 .f32 0x00000000#32) j
      + broadcastTo S16000x64 (shapeCast S1x64 b shapeCasts_S1x64_S1x64) broadcasts_S1x64_S16000x64 j = _
  rw [matmul_at, bias_at]
  rfl

end Cert.KernelIdeal.EdgeProj

end
-- ==== Proof.EdgeArr.lean ====
/-
  The edge projection as ONE array.

  The second linear kernel runs over 100 grid points; point `t` reads rows 16000·t … 16000·t + 15999 of the
  edge features, the whole weight matrix and the whole bias row, and writes back rows 16000·t … of the result.
  Every written block is a block of one function of the whole arrays,
      edgeArr x W b [r, q] = ∑ k < 32, x[r, k] · W[k, q] + b[0, q],
  and the hundred blocks tile the 1600000 rows, so after the region the result array IS that function.
-/
import proofs.«412949_j3453153706428_3_alg».proof.Proof.Gen.KernelIdeal.Frame
import proofs.«412949_j3453153706428_3_alg».proof.Proof.EdgePay
import Idealize.ShloMosaic.Lib.Pipeline.Value

set_option maxRecDepth 16384

noncomputable section

namespace Cert.KernelIdeal.EdgeProj

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `r` of the edge features, column `k`. -/
abbrev xRow (i : S1600000x64.Idx) (k : Fin 32) : S1600000x32.Idx := fun a => match a with
  | ⟨0, _⟩ => ⟨(i 0).val, (i 0).isLt⟩
  | ⟨1, _⟩ => ⟨k.val, k.isLt⟩
/-- Row `k` of the weights, column `q`. -/
abbrev wCol (i : S1600000x64.Idx) (k : Fin 32) : S32x64.Idx := fun a => match a with
  | ⟨0, _⟩ => ⟨k.val, k.isLt⟩
  | ⟨1, _⟩ => ⟨(i 1).val, (i 1).isLt⟩
/-- The bias row at column `q`. -/
abbrev bCol (i : S1600000x64.Idx) : S1x64.Idx := fun a => match a with
  | ⟨0, _⟩ => ⟨0, Nat.one_pos⟩
  | ⟨1, _⟩ => ⟨(i 1).val, (i 1).isLt⟩

/-- The edge projection of whole arrays: rows of `x` times `W`, plus the bias row. -/
def edgeArr (x : Vec Ideal S1600000x32 .f32) (W : Vec Ideal S32x64 .f32) (b : Vec Ideal S1x64 .f32) : Vec Ideal S1600000x64 .f32 :=
  fun i => (∑ k : Fin 32, x (xRow i k) * W (wCol i k)) + b (bCol i)

/-- Where each window's block sits at point `t`: the edge features and the result at block row `t`, the weights and the
    bias at their only block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `edgeArr` of the arrays as the region finds them. -/
theorem flushed_eq (c : Dev nD) (t : Fin cfg1.N) :
    (dat1 V c).flushed 3 t = ((cfg1.win 3).blk t).view.read (Elt Ideal) (edgeArr (V c main_arg2) (V c main_arg5) (V c main_v6)) := by
  show (cfg1.win 3).cut (grid1.coords t) ((dat1 V c).after 3 t) = _
  rw [after1_3]
  unfold out1_3
  rw [View.canon_unit_zero hz]
  simp only [View.ld_unit_zero (S := S16000x32) hz, View.ld_unit_zero (S := S32x64) hz, View.ld_unit_zero (S := S1x64) hz]
  obtain ⟨e0, e1, e2, e3, e4, e5, e6, e7⟩ := idx_facts t
  funext j
  show k1_pay1 (F := Ideal) (iblk1 V c 0 t) (iblk1 V c 1 t) (iblk1 V c 2 t) j
      = edgeArr (V c main_arg2) (V c main_arg5) (V c main_v6) (((cfg1.win 3).blk t).view.emb j)
  refine (pay_at (iblk1 V c 0 t) (iblk1 V c 1 t) (iblk1 V c 2 t) j).trans ?_
  unfold edgeArr
  have hx : ∀ k : Fin 32, iblk1 V c 0 t (xIdx j k) = V c main_arg2 (xRow (((cfg1.win 3).blk t).view.emb j) k) := fun k => by
    show V c main_arg2 (((cfg1.win 0).blk t).view.emb (xIdx j k)) = _
    refine congrArg (V c main_arg2) (funext fun a => Fin.ext ?_)
    match a with
    | ⟨0, _⟩ => show win1_0.index t (0 : Fin 2) * 16000 + 1 * (j 0).val = win1_3.index t (0 : Fin 2) * 16000 + 1 * (j 0).val; omega
    | ⟨1, _⟩ => show win1_0.index t (1 : Fin 2) * 32 + 1 * k.val = k.val; omega
  have hw : ∀ k : Fin 32, iblk1 V c 1 t (wIdx j k) = V c main_arg5 (wCol (((cfg1.win 3).blk t).view.emb j) k) := fun k => by
    show V c main_arg5 (((cfg1.win 1).blk t).view.emb (wIdx j k)) = _
    refine congrArg (V c main_arg5) (funext fun a => Fin.ext ?_)
    match a with
    | ⟨0, _⟩ => show win1_1.index t (0 : Fin 2) * 32 + 1 * k.val = k.val; omega
    | ⟨1, _⟩ => show win1_1.index t (1 : Fin 2) * 64 + 1 * (j 1).val = win1_3.index t (1 : Fin 2) * 64 + 1 * (j 1).val; omega
  have hb : iblk1 V c 2 t (bIdx j) = V c main_v6 (bCol (((cfg1.win 3).blk t).view.emb j)) := by
    show V c main_v6 (((cfg1.win 2).blk t).view.emb (bIdx j)) = _
    refine congrArg (V c main_v6) (funext fun a => Fin.ext ?_)
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega
  rw [hb]
  exact congrArg (· + _) (Finset.sum_congr rfl fun k _ => by rw [hx k, hw k])

/-- An index of the result is in point `t`'s block iff each coordinate is in the block's range on its axis. -/
theorem mem_blk (t : Fin cfg1.N) (i : S1600000x64.Idx) :
    i ∈ ((cfg1.win 3).blk t).view.set ↔ ∀ a : Fin 2, win1_3.index t a * S16000x64.size a ≤ (i a).val ∧ (i a).val < win1_3.index t a * S16000x64.size a + S16000x64.size a := by
  show i ∈ ((View.whole main_v7).slice (win1_3.rect t)).set ↔ _
  rw [View.set_slice_whole, Rect.mem_set_unit]
  exact Iff.rfl

/-- Row `r` lies in the block of point `r / 16000`: the hundred blocks tile the rows. -/
theorem cover (i : S1600000x64.Idx) : ∃ t : Fin cfg1.N, (cfg1.win 3).flush t = true ∧ i ∈ ((cfg1.win 3).blk t).view.set := by
  have hi0 : (i 0).val < 1600000 := (i 0).isLt
  have hi1 : (i 1).val < 64 := (i 1).isLt
  refine ⟨⟨(i 0).val / 16000, by rw [show cfg1.N = 100 from N_1]; omega⟩, flush1_3 _, ?_⟩
  rw [mem_blk]
  obtain ⟨-, -, -, -, -, -, e6, e7⟩ := idx_facts ⟨(i 0).val / 16000, by rw [show cfg1.N = 100 from N_1]; omega⟩
  intro a
  match a with
  | ⟨0, _⟩ =>
    show win1_3.index _ (0 : Fin 2) * 16000 ≤ (i 0).val ∧ (i 0).val < win1_3.index _ (0 : Fin 2) * 16000 + 16000
    rw [e6]; show (i 0).val / 16000 * 16000 ≤ (i 0).val ∧ (i 0).val < (i 0).val / 16000 * 16000 + 16000; omega
  | ⟨1, _⟩ =>
    show win1_3.index _ (1 : Fin 2) * 64 ≤ (i 1).val ∧ (i 1).val < win1_3.index _ (1 : Fin 2) * 64 + 64
    rw [e7]; omega

/-- After the region the result array is `edgeArr` of the edge features, the weights and the bias row as the region
    found them. -/
theorem arr_eq (c : Dev nD) :
    (dat1 V c).arrAt 3 cfg1.N = edgeArr (V c main_arg2) (V c main_arg5) (V c main_v6) :=
  (dat1 V c).arrAt_eq_of_cover 3 (edgeArr (V c main_arg2) (V c main_arg5) (V c main_v6)) (fun t _ => flushed_eq V c t) cover

end Cert.KernelIdeal.EdgeProj

end
-- ==== Proof.MsgArr.lean ====
/-
  The message kernel as ONE array.

  The third kernel multiplies two 1600000 × 64 arrays entry by entry, 8000 rows per grid point over 200 points:
  point `t` reads rows 8000·t … of both operands and writes back the same rows of the result. Every written block
  is a block of the entrywise product of the whole arrays, and the 200 blocks tile the rows, so after the region
  the result array is that product.
-/
import proofs.«412949_j3453153706428_3_alg».proof.Proof.Gen.KernelIdeal.Frame
import Idealize.ShloMosaic.Lib.Pipeline.Value

set_option maxRecDepth 16384

noncomputable section

namespace Cert.KernelIdeal.Messages

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The entrywise product of two whole arrays. -/
abbrev prodArr (a0 : S1600000x64.Idx → Elt F .f32) (a1 : S1600000x64.Idx → Elt F .f32) : S1600000x64.Idx → Elt F .f32 :=
  fun i => FloatOps.mulf (a0 i) (a1 i)

/-- The body's stored value is the entrywise product of its two loaded blocks (the two shape casts are to the
    same shape). -/
theorem pay_eq (x0 x1 : Vec F S8000x64 .f32) : k2_pay1 x0 x1 = mulf x0 x1 := by
  unfold k2_pay1
  rw [shapeCast_self, shapeCast_self]

/-- All three windows sit at block row `t` at point `t`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two operand arrays as the region finds them. -/
theorem flushed_eq (c : Dev nD) (t : Fin cfg2.N) :
    (dat2 V c).flushed 2 t = ((cfg2.win 2).blk t).view.read (Elt F) (prodArr (V c main_v41) (V c main_v34)) := by
  show (cfg2.win 2).cut (grid2.coords t) ((dat2 V c).after 2 t) = _
  rw [after2_2]
  unfold out2_2
  rw [View.canon_unit_zero hz]
  simp only [View.ld_unit_zero (S := S8000x64) hz]
  rw [pay_eq]
  obtain ⟨e0, e1, e2, e3, e4, e5⟩ := idx_facts t
  funext j
  show FloatOps.mulf (V c main_v41 (((cfg2.win 0).blk t).view.emb j)) (V c main_v34 (((cfg2.win 1).blk t).view.emb j))
      = FloatOps.mulf (V c main_v41 (((cfg2.win 2).blk t).view.emb j)) (V c main_v34 (((cfg2.win 2).blk t).view.emb j))
  have h0 : ((cfg2.win 0).blk t).view.emb j = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 64 + 1 * (j 1).val = win2_2.index t (1 : Fin 2) * 64 + 1 * (j 1).val; omega
  rw [h0, h1]

/-- An index of the result is in point `t`'s block iff each coordinate is in the block's range on its axis. -/
theorem mem_blk (t : Fin cfg2.N) (i : S1600000x64.Idx) :
    i ∈ ((cfg2.win 2).blk t).view.set ↔ ∀ a : Fin 2, win2_2.index t a * S8000x64.size a ≤ (i a).val ∧ (i a).val < win2_2.index t a * S8000x64.size a + S8000x64.size a := by
  show i ∈ ((View.whole main_v42).slice (win2_2.rect t)).set ↔ _
  rw [View.set_slice_whole, Rect.mem_set_unit]
  exact Iff.rfl

/-- Row `r` lies in the block of point `r / 8000`: the 200 blocks tile the rows. -/
theorem cover (i : S1600000x64.Idx) : ∃ t : Fin cfg2.N, (cfg2.win 2).flush t = true ∧ i ∈ ((cfg2.win 2).blk t).view.set := by
  have hi0 : (i 0).val < 1600000 := (i 0).isLt
  have hi1 : (i 1).val < 64 := (i 1).isLt
  refine ⟨⟨(i 0).val / 8000, by rw [show cfg2.N = 200 from N_2]; omega⟩, flush2_2 _, ?_⟩
  rw [mem_blk]
  obtain ⟨-, -, -, -, e4, e5⟩ := idx_facts ⟨(i 0).val / 8000, by rw [show cfg2.N = 200 from N_2]; omega⟩
  intro a
  match a with
  | ⟨0, _⟩ =>
    show win2_2.index _ (0 : Fin 2) * 8000 ≤ (i 0).val ∧ (i 0).val < win2_2.index _ (0 : Fin 2) * 8000 + 8000
    rw [e4]; show (i 0).val / 8000 * 8000 ≤ (i 0).val ∧ (i 0).val < (i 0).val / 8000 * 8000 + 8000; omega
  | ⟨1, _⟩ =>
    show win2_2.index _ (1 : Fin 2) * 64 ≤ (i 1).val ∧ (i 1).val < win2_2.index _ (1 : Fin 2) * 64 + 64
    rw [e5]; omega

/-- After the region the result array is the entrywise product of the two operand arrays as the region found them. -/
theorem arr_eq (c : Dev nD) :
    (dat2 V c).arrAt 2 cfg2.N = prodArr (V c main_v41) (V c main_v34) :=
  (dat2 V c).arrAt_eq_of_cover 2 (prodArr (V c main_v41) (V c main_v34)) (fun t _ => flushed_eq V c t) cover

end Cert.KernelIdeal.Messages

end
-- ==== Proof.Boundary.lean ====
/-
  The host program around the three kernels, read boundary by boundary.

  Between the kernels the host computes, from the edge list alone, the source and destination node of every edge,
  the destination degrees, their inverse square roots, the edge norm and the row indices of the gather; it gathers
  the node projection at the source nodes, scales the edge projection by the norm, and after the last kernel
  scatter-adds the messages to their destination nodes. These are the SAME host operations as the reference's, so
  each boundary value is stated with the reference's own stage functions of the edge list; only the two projections
  and the message product come from kernels, and they enter as the arrays the regions leave.
-/
import proofs.«412949_j3453153706428_3_alg».proof.Proof.Gen.KernelIdeal.Frame
import proofs.«412949_j3453153706428_3_alg».proof.Proof.MsgArr
import proofs.«412949_j3453153706428_3_alg».proof.Proof.RefRead
import Idealize.ShloMosaic.Lib.StableHlo.Run

set_option maxRecDepth 16384

noncomputable section

namespace Cert.KernelIdeal.Boundary

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-! ## Before the first kernel: the edge list split into sources and destinations, the bias as a row -/

theorem W1_src (c : Dev nD) : W1 m ρ c (Proc.devRef .tc main_v1) = Cert.ReferenceIdeal.ReadP.val_main_v9 (F := F) (m ((c.tc : Thread nD τ).loc main_arg1)) := by
  dsimp only [W1, hostOps0]
  after_results
  rfl
theorem W1_dst (c : Dev nD) : W1 m ρ c (Proc.devRef .tc main_v3) = Cert.ReferenceIdeal.ReadP.val_main_v11 (F := F) (m ((c.tc : Thread nD τ).loc main_arg1)) := by
  dsimp only [W1, hostOps0]
  after_results
  rfl
theorem W1_bias (c : Dev nD) : W1 m ρ c (Proc.devRef .tc main_v4) = shapeCast S1x64 (m ((c.tc : Thread nD τ).loc main_arg4)) shapeCasts_S64_S1x64 := by
  dsimp only [W1, hostOps0]
  after_results
  rfl
theorem W1_arg0 (c : Dev nD) : W1 m ρ c (Proc.devRef .tc main_arg0) = m ((c.tc : Thread nD τ).loc main_arg0) := by
  dsimp only [W1, hostOps0]
  after_results
theorem W1_arg3 (c : Dev nD) : W1 m ρ c (Proc.devRef .tc main_arg3) = m ((c.tc : Thread nD τ).loc main_arg3) := by
  dsimp only [W1, hostOps0]
  after_results
theorem W1_arg2 (c : Dev nD) : W1 m ρ c (Proc.devRef .tc main_arg2) = m ((c.tc : Thread nD τ).loc main_arg2) := by
  dsimp only [W1, hostOps0]
  after_results
theorem W1_arg5 (c : Dev nD) : W1 m ρ c (Proc.devRef .tc main_arg5) = m ((c.tc : Thread nD τ).loc main_arg5) := by
  dsimp only [W1, hostOps0]
  after_results
theorem W1_arg6 (c : Dev nD) : W1 m ρ c (Proc.devRef .tc main_arg6) = m ((c.tc : Thread nD τ).loc main_arg6) := by
  dsimp only [W1, hostOps0]
  after_results

/-! ## Across the first kernel and the stretch after it: the node projection appears, the rest is kept -/

/-- The first kernel's result array. -/
abbrev nodeOut (c : Dev nD) := (dat0 (V1 m ρ) c).arrAt 3 cfg0.N
/-- The second kernel's result array. -/
abbrev edgeOut (c : Dev nD) := (dat1 (V3 m ρ) c).arrAt 3 cfg1.N

theorem W3_of_W2 (c : Dev nD) (b : Ref sig .tc) (hb : b ≠ main_v6) : W3 m ρ c (Proc.devRef .tc b) = W2 m ρ c (Proc.devRef .tc b) := by
  dsimp only [W3, hostOps1]
  rw [after_cons, after_nil, reshape_result_ne]
  exact hb

theorem W3_src (c : Dev nD) : W3 m ρ c (Proc.devRef .tc main_v1) = Cert.ReferenceIdeal.ReadP.val_main_v9 (F := F) (m ((c.tc : Thread nD τ).loc main_arg1)) :=
  (W3_of_W2 m ρ c main_v1 (by decide)).trans ((W2_of_ne m ρ c main_v1 (by decide)).trans (W1_src m ρ c))
theorem W3_dst (c : Dev nD) : W3 m ρ c (Proc.devRef .tc main_v3) = Cert.ReferenceIdeal.ReadP.val_main_v11 (F := F) (m ((c.tc : Thread nD τ).loc main_arg1)) :=
  (W3_of_W2 m ρ c main_v3 (by decide)).trans ((W2_of_ne m ρ c main_v3 (by decide)).trans (W1_dst m ρ c))
theorem W3_node (c : Dev nD) : W3 m ρ c (Proc.devRef .tc main_v5) = nodeOut m ρ c :=
  (W3_of_W2 m ρ c main_v5 (by decide)).trans (W2_arr m ρ c 3)
theorem W3_arg2 (c : Dev nD) : W3 m ρ c (Proc.devRef .tc main_arg2) = m ((c.tc : Thread nD τ).loc main_arg2) :=
  (W3_of_W2 m ρ c main_arg2 (by decide)).trans ((W2_of_ne m ρ c main_arg2 (by decide)).trans (W1_arg2 m ρ c))
theorem W3_arg5 (c : Dev nD) : W3 m ρ c (Proc.devRef .tc main_arg5) = m ((c.tc : Thread nD τ).loc main_arg5) :=
  (W3_of_W2 m ρ c main_arg5 (by decide)).trans ((W2_of_ne m ρ c main_arg5 (by decide)).trans (W1_arg5 m ρ c))
theorem W3_bias (c : Dev nD) : W3 m ρ c (Proc.devRef .tc main_v6) = shapeCast S1x64 (m ((c.tc : Thread nD τ).loc main_arg6)) shapeCasts_S64_S1x64 := by
  dsimp only [W3, hostOps1]
  after_results
  rw [W2_of_ne m ρ c main_arg6 (by decide), W1_arg6]
  rfl

/-! ## Across the second kernel -/

theorem W4_src (c : Dev nD) : W4 m ρ c (Proc.devRef .tc main_v1) = Cert.ReferenceIdeal.ReadP.val_main_v9 (F := F) (m ((c.tc : Thread nD τ).loc main_arg1)) :=
  (W4_of_ne m ρ c main_v1 (by decide)).trans (W3_src m ρ c)
theorem W4_dst (c : Dev nD) : W4 m ρ c (Proc.devRef .tc main_v3) = Cert.ReferenceIdeal.ReadP.val_main_v11 (F := F) (m ((c.tc : Thread nD τ).loc main_arg1)) :=
  (W4_of_ne m ρ c main_v3 (by decide)).trans (W3_dst m ρ c)
theorem W4_node (c : Dev nD) : W4 m ρ c (Proc.devRef .tc main_v5) = nodeOut m ρ c :=
  (W4_of_ne m ρ c main_v5 (by decide)).trans (W3_node m ρ c)
theorem W4_edge (c : Dev nD) : W4 m ρ c (Proc.devRef .tc main_v7) = edgeOut m ρ c :=
  W4_arr m ρ c 3

/-! ## The long stretch before the last kernel: degrees, norm, the gather of the node projection -/

/-- The node projection gathered at every edge's source node. -/
theorem W7_gathered (c : Dev nD) : W7 m ρ c (Proc.devRef .tc main_v41)
    = Host.gather Cert.ReferenceIdeal.gather_S100000x64_S1600000x1_S1600000x64_1_0_n_n_0_1_164 (nodeOut m ρ c)
        (Cert.ReferenceIdeal.ReadP.val_main_v52 (F := F) (m ((c.tc : Thread nD τ).loc main_arg1))) := by
  dsimp only [W7, W6, W5, hostOps2_2, hostOps2_1, hostOps2]
  after_results_simp
  rw [W4_src, W4_node]
  rfl

/-- The edge projection scaled by the edge norm. -/
theorem W7_scaled (c : Dev nD) : W7 m ρ c (Proc.devRef .tc main_v34)
    = mulf (Cert.ReferenceIdeal.ReadP.val_main_v54 (F := F) (m ((c.tc : Thread nD τ).loc main_arg1))) (edgeOut m ρ c) := by
  dsimp only [W7, W6, W5, hostOps2_2, hostOps2_1, hostOps2]
  after_results_simp
  rw [W4_src, W4_dst, W4_edge]
  rfl

/-- The destinations are kept through the stretch. -/
theorem W7_dst (c : Dev nD) : W7 m ρ c (Proc.devRef .tc main_v3) = Cert.ReferenceIdeal.ReadP.val_main_v11 (F := F) (m ((c.tc : Thread nD τ).loc main_arg1)) := by
  dsimp only [W7, W6, W5, hostOps2_2, hostOps2_1, hostOps2]
  after_results_simp
  exact W4_dst m ρ c

/-! ## Across the last kernel, and the scatter-add after it -/

/-- The messages: gathered node projection times scaled edge projection, entry by entry. -/
theorem W8_messages (c : Dev nD) : W8 m ρ c (Proc.devRef .tc main_v42)
    = Messages.prodArr (W7 m ρ c (Proc.devRef .tc main_v41)) (W7 m ρ c (Proc.devRef .tc main_v34)) :=
  (W8_arr m ρ c 2).trans (Messages.arr_eq (V7 m ρ) c)

/-- THE RESULT: the messages scatter-added to their destination nodes, with the two projections the arrays the first two
    kernels leave. -/
theorem result (c : Dev nD) : W9 m ρ c (Proc.devRef .tc main_v45)
    = Host.scatterAdd Cert.ReferenceIdeal.scatter_S100000x64_S1600000x1_S1600000x64_1_0_0_1 (Cert.ReferenceIdeal.ReadP.val_main_v57 (F := F))
        (Cert.ReferenceIdeal.ReadP.val_main_v58 (F := F) (m ((c.tc : Thread nD τ).loc main_arg1)))
        (Messages.prodArr
          (Host.gather Cert.ReferenceIdeal.gather_S100000x64_S1600000x1_S1600000x64_1_0_n_n_0_1_164 (nodeOut m ρ c)
            (Cert.ReferenceIdeal.ReadP.val_main_v52 (F := F) (m ((c.tc : Thread nD τ).loc main_arg1))))
          (mulf (Cert.ReferenceIdeal.ReadP.val_main_v54 (F := F) (m ((c.tc : Thread nD τ).loc main_arg1))) (edgeOut m ρ c))) := by
  dsimp only [W9, hostOps3]
  after_results
  rw [W8_messages, W8_of_ne m ρ c main_v3 (by decide), W7_gathered, W7_scaled, W7_dst]
  rfl

end Cert.KernelIdeal.Boundary

end
-- ==== Proof.Bridge.lean ====
/-
  The two programs compute one function.

  Kernel:     out = scatter_add over destinations of   h[src] · (norm · e)
  Reference:  out = scatter_add over destinations of   (norm · h[src]) · e
  with  h = x · W_lin + b_lin  and  e = ef · W_edge + b_edge  on both sides (the kernels' casts to bf16 are the
  identity on extended reals and a product accumulated into a zero block is the host's contraction), the same
  degree, norm and index arrays computed from the edge list by the same host operations, and the three-factor
  product regrouped: multiplication of extended reals is commutative and associative, so
      a · (n · e) = (n · a) · e
  holds at every entry, infinite ones included — no finiteness of the inputs is used.
-/
import proofs.«412949_j3453153706428_3_alg».proof.Defs
import proofs.«412949_j3453153706428_3_alg».proof.Proof.Gen.Kernel.Frame
import proofs.«412949_j3453153706428_3_alg».proof.Proof.Gen.KernelIdeal.Frame
import proofs.«412949_j3453153706428_3_alg».proof.Proof.Gen.Pre_finite_inputs
import proofs.«412949_j3453153706428_3_alg».proof.Proof.RunNamed
import proofs.«412949_j3453153706428_3_alg».proof.Proof.NodeArr
import proofs.«412949_j3453153706428_3_alg».proof.Proof.EdgeArr
import proofs.«412949_j3453153706428_3_alg».proof.Proof.Boundary
import proofs.«412949_j3453153706428_3_alg».proof.Proof.RefRead

set_option maxRecDepth 16384

noncomputable section

open Idealize.ShloMosaic Idealize.ShloMosaic.TcCoe Idealize.SL.Sem

namespace Cert.ReferenceIdeal.Projections

open Cert.ReferenceIdeal Cert.ReferenceIdeal.Gen Cert.ReferenceIdeal.ReadP

/-- The bias as a 1 × 64 row, read at column `q`, is the bias at `q`. -/
theorem bias_row (b : (⟨S64, .f32⟩ : BufTy).Contents (Elt Ideal)) (j : S1x64.Idx) (k : S64.Idx) (hk : (k 0).val = (j 1).val) :
    shapeCast Cert.KernelIdeal.S1x64 b Cert.KernelIdeal.Facts₀.shapeCasts_S64_S1x64 j = b k := by
  refine shapeCast_apply b Cert.KernelIdeal.Facts₀.shapeCasts_S64_S1x64 j k ?_
  rw [Shape.rowMajor_val_one, Shape.rowMajor_val_two, hk]
  show (j 1).val = (j 0).val * 64 + (j 1).val
  have h0 : (j 0).val < 1 := (j 0).isLt
  omega

/-- The reference's node projection is the first kernel's function of the whole arrays. -/
theorem node_eq (x0 : (⟨S100000x128, .f32⟩ : BufTy).Contents (Elt Ideal)) (x3 : (⟨S128x64, .f32⟩ : BufTy).Contents (Elt Ideal)) (x4 : (⟨S64, .f32⟩ : BufTy).Contents (Elt Ideal)) :
    val_main_v3 (F := Ideal) x0 x3 x4 = Cert.KernelIdeal.NodeProj.nodeArr x0 x3 (shapeCast Cert.KernelIdeal.S1x64 x4 Cert.KernelIdeal.Facts₀.shapeCasts_S64_S1x64) := by
  funext i
  rw [val_main_v3_apply, val_main_v0_apply, val_main_v2_apply, val_main_v1_apply]
  unfold Cert.KernelIdeal.NodeProj.nodeArr
  have hb : shapeCast Cert.KernelIdeal.S1x64 x4 Cert.KernelIdeal.Facts₀.shapeCasts_S64_S1x64 (Cert.KernelIdeal.NodeProj.bCol i) = x4 (idx_main_v1 (idx_main_v2 i)) :=
    bias_row x4 _ _ rfl
  rw [hb]
  refine congrArg (· + x4 (idx_main_v1 (idx_main_v2 i))) (Finset.sum_congr rfl fun k _ => ?_)
  have el : lidx_main_v0 i k = Cert.KernelIdeal.NodeProj.xRow i k := funext fun a => by match a with | ⟨0, _⟩ => rfl | ⟨1, _⟩ => rfl
  have er : ridx_main_v0 i k = Cert.KernelIdeal.NodeProj.wCol i k := funext fun a => by match a with | ⟨0, _⟩ => rfl | ⟨1, _⟩ => rfl
  rw [el, er]

/-- The reference's edge projection is the second kernel's function of the whole arrays. -/
theorem edge_eq (x2 : (⟨S1600000x32, .f32⟩ : BufTy).Contents (Elt Ideal)) (x5 : (⟨S32x64, .f32⟩ : BufTy).Contents (Elt Ideal)) (x6 : (⟨S64, .f32⟩ : BufTy).Contents (Elt Ideal)) :
    val_main_v7 (F := Ideal) x2 x5 x6 = Cert.KernelIdeal.EdgeProj.edgeArr x2 x5 (shapeCast Cert.KernelIdeal.S1x64 x6 Cert.KernelIdeal.Facts₀.shapeCasts_S64_S1x64) := by
  funext i
  rw [val_main_v7_apply, val_main_v4_apply, val_main_v6_apply, val_main_v5_apply]
  unfold Cert.KernelIdeal.EdgeProj.edgeArr
  have hb : shapeCast Cert.KernelIdeal.S1x64 x6 Cert.KernelIdeal.Facts₀.shapeCasts_S64_S1x64 (Cert.KernelIdeal.EdgeProj.bCol i) = x6 (idx_main_v5 (idx_main_v6 i)) :=
    bias_row x6 _ _ rfl
  rw [hb]
  refine congrArg (· + x6 (idx_main_v5 (idx_main_v6 i))) (Finset.sum_congr rfl fun k _ => ?_)
  have el : lidx_main_v4 i k = Cert.KernelIdeal.EdgeProj.xRow i k := funext fun a => by match a with | ⟨0, _⟩ => rfl | ⟨1, _⟩ => rfl
  have er : ridx_main_v4 i k = Cert.KernelIdeal.EdgeProj.wCol i k := funext fun a => by match a with | ⟨0, _⟩ => rfl | ⟨1, _⟩ => rfl
  rw [el, er]

end Cert.ReferenceIdeal.Projections

namespace Cert.KernelIdeal.Outcome

open Cert.KernelIdeal Cert.KernelIdeal.Gen Cert.KernelIdeal.Boundary

variable (m : (ℓ : Loc nD τ sig) → Buf (Elt Ideal) ℓ) (ρ : Dev nD → PrngReg)

/-- The first kernel leaves the node projection of the launch arrays. -/
theorem node_out (c : Dev nD) : nodeOut m ρ c
    = NodeProj.nodeArr (m ((c.tc : Thread nD τ).loc main_arg0)) (m ((c.tc : Thread nD τ).loc main_arg3))
        (shapeCast S1x64 (m ((c.tc : Thread nD τ).loc main_arg4)) shapeCasts_S64_S1x64) := by
  refine (NodeProj.arr_eq (V1 m ρ) c).trans ?_
  show NodeProj.nodeArr (W1 m ρ c (Proc.devRef .tc main_arg0)) (W1 m ρ c (Proc.devRef .tc main_arg3)) (W1 m ρ c (Proc.devRef .tc main_v4)) = _
  rw [W1_arg0, W1_arg3, W1_bias]

/-- The second kernel leaves the edge projection of the launch arrays. -/
theorem edge_out (c : Dev nD) : edgeOut m ρ c
    = EdgeProj.edgeArr (m ((c.tc : Thread nD τ).loc main_arg2)) (m ((c.tc : Thread nD τ).loc main_arg5))
        (shapeCast S1x64 (m ((c.tc : Thread nD τ).loc main_arg6)) shapeCasts_S64_S1x64) := by
  refine (EdgeProj.arr_eq (V3 m ρ) c).trans ?_
  show EdgeProj.edgeArr (W3 m ρ c (Proc.devRef .tc main_arg2)) (W3 m ρ c (Proc.devRef .tc main_arg5)) (W3 m ρ c (Proc.devRef .tc main_v6)) = _
  rw [W3_arg2, W3_arg5, W3_bias]

/-- The three-factor product regrouped, entry by entry: a · (n · e) = (n · a) · e on the extended reals. -/
theorem product_law (a n e : FVec Ideal S1600000x64 .f32) :
    Messages.prodArr (F := Ideal) a (mulf n e) = mulf (mulf n a) e := by
  funext i
  show a i * (n i * e i) = n i * a i * e i
  rw [mul_left_comm, mul_assoc]

/-- THE KERNEL'S VALUE: the result buffer at the last boundary is the reference's last stage of the launch arrays. -/
theorem value (c : Dev nD) : W9 m ρ c (Proc.devRef .tc main_v45)
    = Cert.ReferenceIdeal.ReadP.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  rw [Boundary.result, node_out, edge_out, product_law]
  unfold Cert.ReferenceIdeal.ReadP.val_main_v59 Cert.ReferenceIdeal.ReadP.val_main_v56 Cert.ReferenceIdeal.ReadP.val_main_v55 Cert.ReferenceIdeal.ReadP.val_main_v53
  rw [Cert.ReferenceIdeal.Projections.node_eq, Cert.ReferenceIdeal.Projections.edge_eq]

/-- The run, read: the result at the reference's last stage of the launch arrays, the arguments unchanged. -/
theorem run : θ_run defs (onTc (τ := τ) (main (F := Ideal))) ⟨m, fun _ => 0, ρ⟩ (fun r => ∀ c : Dev nD,
      r.2.mem ((c.tc : Thread nD τ).loc main_v45) = Cert.ReferenceIdeal.ReadP.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (value m ρ c), (h c).2⟩) (Cert.KernelIdeal.GenP.run_named (F := Ideal) m ρ)

end Cert.KernelIdeal.Outcome

/-! ## The claims -/

namespace Cert.Proof.Claims

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's last stage of the (agreeing) launch arrays. -/
theorem algebraic : Cert.algebraic_KernelIdeal_ReferenceIdeal := by
  intro m ρ m' ρ' _ hagree
  refine ⟨fun c => Cert.ReferenceIdeal.ReadP.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), Cert.KernelIdeal.Outcome.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  rw [Cert.ReferenceIdeal.ReadP.val_main_v59_eq, h0, h1, h2, h3, h4, h5, h6]

end Cert.Proof.Claims

end
-- ==== Proof.lean ====
/-
  The certificate of the edge-conditioned graph layer: a Pallas program of three kernels (two dense projections and
  an entrywise product) among host gathers and scatter-adds, against its jnp reference, over the extended reals.
  The three frames are the generated ones (the reference's is its run with the result dropped); the idealization
  rewrote nothing, so `preserves` is trivial; the value claim is Proof/Bridge.lean: both programs end with
  the scatter-add of norm · h[src] · e, the product grouped differently on the two sides.
-/
import proofs.«412949_j3453153706428_3_alg».proof.Defs
import proofs.«412949_j3453153706428_3_alg».proof.Proof.Gen.Kernel
import proofs.«412949_j3453153706428_3_alg».proof.Proof.Gen.KernelIdeal
import proofs.«412949_j3453153706428_3_alg».proof.Proof.Gen.ReferenceIdeal
import proofs.«412949_j3453153706428_3_alg».proof.Proof.Gen.Pre_finite_inputs
import proofs.«412949_j3453153706428_3_alg».proof.Proof.Bridge

noncomputable section

namespace Cert.Proof

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
